-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : IVec S2x1000000 32) (main_arg1 : FVec F S100000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S2x1000000 : Shape := ⟨2, ![2, 1000000]⟩
abbrev S100000x128 : Shape := ⟨2, ![100000, 128]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S106496x128 : Shape := ⟨2, ![106496, 128]⟩
abbrev S8192x128 : Shape := ⟨2, ![8192, 128]⟩
abbrev S1x128 : Shape := ⟨2, ![1, 128]⟩

abbrev nBuf : Space → Nat
  | .hbm => 78
  | .vmem => 18
  | .smem => 0
  | _ => 0

abbrev bufTy : (tb : Table) → Fin (tcTables nBuf tb) → BufTy
  | .hbm, ⟨0, _⟩ => ⟨S2x1000000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S100000x128, .f32⟩
  | .hbm, ⟨23, _⟩ => ⟨S1000000x1, .i32⟩
  | .hbm, ⟨24, _⟩ => ⟨S100000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S_, .f32⟩
  | .hbm, ⟨39, _⟩ => ⟨S106496x128, .f32⟩
  | .hbm, ⟨40, _⟩ => ⟨S_, .i32⟩
  | .hbm, ⟨41, _⟩ => ⟨S_, .f32⟩
  | .hbm, ⟨42, _⟩ => ⟨S106496x128, .f32⟩
  | .hbm, ⟨43, _⟩ => ⟨S106496x128, .f32⟩
  | .hbm, ⟨44, _⟩ => ⟨S100000x128, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x128, .f32⟩
  | .hbm, ⟨54, _⟩ => ⟨S_, .f32⟩
  | .hbm, ⟨55, _⟩ => ⟨S100000x128, .f32⟩
  | .hbm, ⟨56, _⟩ => ⟨S1000000x1, .i32⟩
  | .hbm, ⟨57, _⟩ => ⟨S100000x128, .f32⟩
  | .hbm, ⟨58, _⟩ => ⟨S_, .f32⟩
  | .hbm, ⟨59, _⟩ => ⟨S1000000, .f32⟩
  | .hbm, ⟨60, _⟩ => ⟨S_, .f32⟩
  | .hbm, ⟨61, _⟩ => ⟨S100000, .f32⟩
  | .hbm, ⟨62, _⟩ => ⟨S1000000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S_, .f32⟩
  | .hbm, ⟨72, _⟩ => ⟨S106496x128, .f32⟩
  | .hbm, ⟨73, _⟩ => ⟨S_, .i32⟩
  | .hbm, ⟨74, _⟩ => ⟨S_, .f32⟩
  | .hbm, ⟨75, _⟩ => ⟨S106496x128, .f32⟩
  | .hbm, ⟨76, _⟩ => ⟨S106496x128, .f32⟩
  | .hbm, ⟨77, _⟩ => ⟨S100000x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S8192x128, .f32⟩
  | .local _ .vmem, ⟨17, _⟩ => ⟨S8192x128, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_call0_v0 : Ref sig .tc := ⟨.hbm, 38, rfl⟩
abbrev main_v23 : Ref sig .tc := ⟨.hbm, 39, rfl⟩
abbrev main_c_5 : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_call2_v0 : Ref sig .tc := ⟨.hbm, 71, rfl⟩
abbrev main_v46 : Ref sig .tc := ⟨.hbm, 72, rfl⟩
abbrev main_c_13 : Ref sig .tc := ⟨.hbm, 73, rfl⟩
abbrev main_call3_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  pads_S100000x128_S106496x128_064960_000 : S100000x128.Pads (![0, 0] : Fin 2 → Nat) ![6496, 0] ![0, 0] S106496x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  slices_S106496x128_S100000x128_0_0 : S106496x128.Slices ![0, 0] S100000x128
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S106496x128.size a
  hwx0_1 : ∀ i : grid0.Coords, EltTy.bits .f32 = 32 ∨ (Rect.block (s := S106496x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S106496x128.size a
  hwx0_5 : ∀ i : grid0.Coords, EltTy.bits .f32 = 32 ∨ (Rect.block (s := S106496x128) S8192x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S106496x128.size a
  hwx1_0 : ∀ i : grid1.Coords, EltTy.bits .f32 = 32 ∨ (Rect.block (s := S106496x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S106496x128.size a
  hwx1_1 : ∀ i : grid1.Coords, EltTy.bits .f32 = 32 ∨ (Rect.block (s := S106496x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x128.size a ≤ S106496x128.size a
  hwx1_5 : ∀ i : grid1.Coords, EltTy.bits .f32 = 32 ∨ (Rect.block (s := S106496x128) S8192x128.size (cc1_transform_5 i) (hinb1_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v23) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x1000000 : Shape := ⟨2, ![2, 1000000]⟩
abbrev S100000x128 : Shape := ⟨2, ![100000, 128]⟩
abbrev S128x128 : Shape := ⟨2, ![128, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S_, .f32⟩
  | .hbm, ⟨22, _⟩ => ⟨S100000x128, .f32⟩
  | .hbm, ⟨23, _⟩ => ⟨S1000000x1, .i32⟩
  | .hbm, ⟨24, _⟩ => ⟨S100000x128, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x128, .f32⟩
  | .hbm, ⟨55, _⟩ => ⟨S_, .f32⟩
  | .hbm, ⟨56, _⟩ => ⟨S100000x128, .f32⟩
  | .hbm, ⟨57, _⟩ => ⟨S1000000x1, .i32⟩
  | .hbm, ⟨58, _⟩ => ⟨S100000x128, .f32⟩
  | .hbm, ⟨59, _⟩ => ⟨S_, .f32⟩
  | .hbm, ⟨60, _⟩ => ⟨S1000000, .f32⟩
  | .hbm, ⟨61, _⟩ => ⟨S_, .f32⟩
  | .hbm, ⟨62, _⟩ => ⟨S100000, .f32⟩
  | .hbm, ⟨63, _⟩ => ⟨S1000000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Keeps.lean ====
/-
  Which buffers each stretch of host operations leaves alone.

  A stretch writes only the result buffers of its own operations; every other buffer (an argument array, a result of an
  earlier stretch, a region's output) holds after the stretch what it held before. The lists below name the buffers each
  of the nine stretches writes, in order.
-/
import proofs.«125207_j29695403884613_1_alg».proof.Proof.Gen.KernelIdeal.Launch
import Idealize.ShloMosaic.Lib.StableHlo.Run
import Idealize.ShloMosaic.PureOps.Ideal

set_option maxRecDepth 16384

noncomputable section

namespace Cert.KernelIdeal.Keeps

open Cert.KernelIdeal Cert.KernelIdeal.Gen Idealize.ShloMosaic Idealize.ShloMosaic.TcCoe Idealize.SL.Sem Idealize.ShloMosaic.StableHlo

/-- The references `hostOps0` writes. -/
abbrev wr0 : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_c_4]

theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps0` does not write keeps its contents through it. -/
theorem keep0 (X : Valuation τ sig (Elt Ideal)) {r : Ref sig .tc} (hr : r ∉ wr0) :
    StableHlo.after hostOps0 X (Proc.devRef .tc r) = X (Proc.devRef .tc r) :=
  StableHlo.after_of_writes_sub hostOps0 X wr0_sub hr

/-- The references `hostOps0_1` writes. -/
abbrev wr1 : List (Ref sig .tc) := [main_call0_v0, main_v23]

theorem wr1_sub : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps0_1` does not write keeps its contents through it. -/
theorem keep1 (X : Valuation τ sig (Elt Ideal)) {r : Ref sig .tc} (hr : r ∉ wr1) :
    StableHlo.after hostOps0_1 X (Proc.devRef .tc r) = X (Proc.devRef .tc r) :=
  StableHlo.after_of_writes_sub hostOps0_1 X wr1_sub hr

/-- The references `hostOps0_2` writes. -/
abbrev wr2 : List (Ref sig .tc) := [main_c_5]

theorem wr2_sub : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps0_2` does not write keeps its contents through it. -/
theorem keep2 (X : Valuation τ sig (Elt Ideal)) {r : Ref sig .tc} (hr : r ∉ wr2) :
    StableHlo.after hostOps0_2 X (Proc.devRef .tc r) = X (Proc.devRef .tc r) :=
  StableHlo.after_of_writes_sub hostOps0_2 X wr2_sub hr

/-- The references `hostOps0_3` writes. -/
abbrev wr3 : List (Ref sig .tc) := [main_call1_v0, main_v24]

theorem wr3_sub : (hostOps0_3 : List (HloOp τ sig (Elt Ideal))).Forall fun op => op.writes ⊆ (wr3.map (Proc.devRef (τ := τ) .tc)).toFinset := by
  simp only [hostOps0_3, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps0_3` does not write keeps its contents through it. -/
theorem keep3 (X : Valuation τ sig (Elt Ideal)) {r : Ref sig .tc} (hr : r ∉ wr3) :
    StableHlo.after hostOps0_3 X (Proc.devRef .tc r) = X (Proc.devRef .tc r) :=
  StableHlo.after_of_writes_sub hostOps0_3 X wr3_sub hr

/-- The references `hostOps1` writes. -/
abbrev wr4 : List (Ref sig .tc) := [main_v26, main_c_6, main_v27, main_v28, main_c_7, main_v29, main_v30, main_v31, main_v32, main_v33, main_cst_8, main_v34, main_v35, main_v36, main_cst_9, main_v37, main_cst_10, main_v38, main_v39, main_v40, main_cst_11, main_v41, main_v42, main_v43, main_v44, main_v45, main_c_12]

theorem wr4_sub : (hostOps1 : List (HloOp τ sig (Elt Ideal))).Forall fun op => op.writes ⊆ (wr4.map (Proc.devRef (τ := τ) .tc)).toFinset := by
  simp only [hostOps1, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps1` does not write keeps its contents through it. -/
theorem keep4 (X : Valuation τ sig (Elt Ideal)) {r : Ref sig .tc} (hr : r ∉ wr4) :
    StableHlo.after hostOps1 X (Proc.devRef .tc r) = X (Proc.devRef .tc r) :=
  StableHlo.after_of_writes_sub hostOps1 X wr4_sub hr

/-- The references `hostOps1_1` writes. -/
abbrev wr5 : List (Ref sig .tc) := [main_call2_v0, main_v46]

theorem wr5_sub : (hostOps1_1 : List (HloOp τ sig (Elt Ideal))).Forall fun op => op.writes ⊆ (wr5.map (Proc.devRef (τ := τ) .tc)).toFinset := by
  simp only [hostOps1_1, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps1_1` does not write keeps its contents through it. -/
theorem keep5 (X : Valuation τ sig (Elt Ideal)) {r : Ref sig .tc} (hr : r ∉ wr5) :
    StableHlo.after hostOps1_1 X (Proc.devRef .tc r) = X (Proc.devRef .tc r) :=
  StableHlo.after_of_writes_sub hostOps1_1 X wr5_sub hr

/-- The references `hostOps1_2` writes. -/
abbrev wr6 : List (Ref sig .tc) := [main_c_13]

theorem wr6_sub : (hostOps1_2 : List (HloOp τ sig (Elt Ideal))).Forall fun op => op.writes ⊆ (wr6.map (Proc.devRef (τ := τ) .tc)).toFinset := by
  simp only [hostOps1_2, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps1_2` does not write keeps its contents through it. -/
theorem keep6 (X : Valuation τ sig (Elt Ideal)) {r : Ref sig .tc} (hr : r ∉ wr6) :
    StableHlo.after hostOps1_2 X (Proc.devRef .tc r) = X (Proc.devRef .tc r) :=
  StableHlo.after_of_writes_sub hostOps1_2 X wr6_sub hr

/-- The references `hostOps1_3` writes. -/
abbrev wr7 : List (Ref sig .tc) := [main_call3_v0, main_v47]

theorem wr7_sub : (hostOps1_3 : List (HloOp τ sig (Elt Ideal))).Forall fun op => op.writes ⊆ (wr7.map (Proc.devRef (τ := τ) .tc)).toFinset := by
  simp only [hostOps1_3, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps1_3` does not write keeps its contents through it. -/
theorem keep7 (X : Valuation τ sig (Elt Ideal)) {r : Ref sig .tc} (hr : r ∉ wr7) :
    StableHlo.after hostOps1_3 X (Proc.devRef .tc r) = X (Proc.devRef .tc r) :=
  StableHlo.after_of_writes_sub hostOps1_3 X wr7_sub hr

/-- The references `hostOps2` writes. -/
abbrev wr8 : List (Ref sig .tc) := [main_v49]

theorem wr8_sub : (hostOps2 : List (HloOp τ sig (Elt Ideal))).Forall fun op => op.writes ⊆ (wr8.map (Proc.devRef (τ := τ) .tc)).toFinset := by
  simp only [hostOps2, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- A reference `hostOps2` does not write keeps its contents through it. -/
theorem keep8 (X : Valuation τ sig (Elt Ideal)) {r : Ref sig .tc} (hr : r ∉ wr8) :
    StableHlo.after hostOps2 X (Proc.devRef .tc r) = X (Proc.devRef .tc r) :=
  StableHlo.after_of_writes_sub hostOps2 X wr8_sub hr

end Cert.KernelIdeal.Keeps

end
-- ==== Proof.HostSide.lean ====
/-
  The host operations of the kernel program around its two regions, as functions of the buffers they read.

  Before each region the program computes the mean aggregation of a feature array over the edge list: every edge (s, d)
  of the 2×1000000 index array sends row s of the features (a negative s counted from the end) to node d; the rows arriving
  at a node are summed and divided by the number of edges arriving there, at least one (`aggr`). It then pads the
  aggregated array and the features with 6496 rows of zeros to 106496 rows (`padRows`), thirteen blocks of 8192. After
  each region it keeps the first 100000 rows of the region's output (`keepRows`). The lemmas here read each buffer a region
  takes, and the program's result, off the list of operations from any contents of the buffers before the stretch.
-/
import proofs.«125207_j29695403884613_1_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

/-- Row 0 of the edge list as a vector: the sending node of each edge. -/
def srcOf (e : (⟨S2x1000000, .i32⟩ : BufTy).Contents (Elt Ideal)) : (⟨S1000000, .i32⟩ : BufTy).Contents (Elt Ideal) :=
  shapeCast _ (extractStridedSlice S1x1000000 ![0, 0] e slices_S2x1000000_S1x1000000_0_0) shapeCasts_S1x1000000_S1000000

/-- Row 1 of the edge list as a vector: the receiving node of each edge. -/
def dstOf (e : (⟨S2x1000000, .i32⟩ : BufTy).Contents (Elt Ideal)) : (⟨S1000000, .i32⟩ : BufTy).Contents (Elt Ideal) :=
  shapeCast _ (extractStridedSlice S1x1000000 ![1, 0] e slices_S2x1000000_S1x1000000_1_0) shapeCasts_S1x1000000_S1000000

/-- The mean over each node's incoming edges of the sending nodes' feature rows. -/
def aggr (s d : (⟨S1000000, .i32⟩ : BufTy).Contents (Elt Ideal)) (x : (⟨S100000x128, .f32⟩ : BufTy).Contents (Elt Ideal)) : (⟨S100000x128, .f32⟩ : BufTy).Contents (Elt Ideal) :=
  Host.divf
    (Host.scatterAdd scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 d)
      (Host.gather gather_S100000x128_S1000000x1_S1000000x128_1_0_n_n_0_1_1128 x
        (broadcastInDim S1000000x1 ![0] bcast_S1000000_S1000000x1_0
          (select (cmpi .slt s (broadcastInDim S1000000 ![] bcast_S_S1000000 (constantI S_ 32 0#32)))
            (addi s (broadcastInDim S1000000 ![] bcast_S_S1000000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 d)
            (broadcastInDim S1000000 ![] bcast_S_S1000000 (constant (F := Ideal) S_ .f32 0x3F800000#32)))
          (broadcastInDim S100000 ![] bcast_S_S100000 (constant (F := Ideal) S_ .f32 0x3F800000#32)))))

/-- 6496 rows of the converted integer zero appended below the 100000 rows. -/
def padRows (x : (⟨S100000x128, .f32⟩ : BufTy).Contents (Elt Ideal)) : (⟨S106496x128, .f32⟩ : BufTy).Contents (Elt Ideal) :=
  pad S106496x128 ![0, 0] ![6496, 0] ![0, 0] x (sitofp (F := Ideal) .f32 (constantI S_ 32 0#32)) pads_S100000x128_S106496x128_064960_000 h_S_

/-- The first 100000 rows. -/
def keepRows (y : (⟨S106496x128, .f32⟩ : BufTy).Contents (Elt Ideal)) : (⟨S100000x128, .f32⟩ : BufTy).Contents (Elt Ideal) :=
  extractStridedSlice S100000x128 ![0, 0] y slices_S106496x128_S100000x128_0_0

variable (X : Valuation τ sig (Elt Ideal))

/-! ## Each stretch by itself, from any contents `X` before it -/

set_option maxHeartbeats 4000000 in
/-- The first stretch leaves the mean aggregation of the features over the edge list in `%22`. -/
theorem s0_v22 : StableHlo.after hostOps0 X (Proc.devRef .tc main_v22)
    = aggr (srcOf (X (Proc.devRef .tc main_arg0))) (dstOf (X (Proc.devRef .tc main_arg0))) (X (Proc.devRef .tc main_arg1)) := by
  after_results_simp
  rfl

set_option maxHeartbeats 4000000 in
theorem s0_v1 : StableHlo.after hostOps0 X (Proc.devRef .tc main_v1) = srcOf (X (Proc.devRef .tc main_arg0)) := by
  after_results_simp
  rfl

set_option maxHeartbeats 4000000 in
theorem s0_v3 : StableHlo.after hostOps0 X (Proc.devRef .tc main_v3) = dstOf (X (Proc.devRef .tc main_arg0)) := by
  after_results_simp
  rfl

set_option maxHeartbeats 4000000 in
theorem s0_c4 : StableHlo.after hostOps0 X (Proc.devRef .tc main_c_4) = constantI S_ 32 0#32 := by
  after_results_simp

/-- The padding call writes its operand under 6496 rows of its converted second operand. -/
theorem s1_v23 : StableHlo.after hostOps0_1 X (Proc.devRef .tc main_v23)
    = pad S106496x128 ![0, 0] ![6496, 0] ![0, 0] (X (Proc.devRef .tc main_v22)) (sitofp (F := Ideal) .f32 (X (Proc.devRef .tc main_c_4))) pads_S100000x128_S106496x128_064960_000 h_S_ := by
  after_results
  rfl

theorem s2_c5 : StableHlo.after hostOps0_2 X (Proc.devRef .tc main_c_5) = constantI S_ 32 0#32 := by
  after_results

theorem s3_v24 : StableHlo.after hostOps0_3 X (Proc.devRef .tc main_v24)
    = pad S106496x128 ![0, 0] ![6496, 0] ![0, 0] (X (Proc.devRef .tc main_arg1)) (sitofp (F := Ideal) .f32 (X (Proc.devRef .tc main_c_5))) pads_S100000x128_S106496x128_064960_000 h_S_ := by
  after_results
  rfl

set_option maxHeartbeats 4000000 in
/-- The stretch after the first region keeps the first 100000 rows of the region's output in `%26` … -/
theorem s4_v26 : StableHlo.after hostOps1 X (Proc.devRef .tc main_v26) = keepRows (X (Proc.devRef .tc main_v25)) := by
  after_results_simp
  rfl

set_option maxHeartbeats 4000000 in
/-- … and leaves their mean aggregation over the same edge list in `%45`. -/
theorem s4_v45 : StableHlo.after hostOps1 X (Proc.devRef .tc main_v45)
    = aggr (X (Proc.devRef .tc main_v1)) (X (Proc.devRef .tc main_v3)) (keepRows (X (Proc.devRef .tc main_v25))) := by
  after_results_simp
  rfl

set_option maxHeartbeats 4000000 in
theorem s4_c12 : StableHlo.after hostOps1 X (Proc.devRef .tc main_c_12) = constantI S_ 32 0#32 := by
  after_results_simp

theorem s5_v46 : StableHlo.after hostOps1_1 X (Proc.devRef .tc main_v46)
    = pad S106496x128 ![0, 0] ![6496, 0] ![0, 0] (X (Proc.devRef .tc main_v45)) (sitofp (F := Ideal) .f32 (X (Proc.devRef .tc main_c_12))) pads_S100000x128_S106496x128_064960_000 h_S_ := by
  after_results
  rfl

theorem s6_c13 : StableHlo.after hostOps1_2 X (Proc.devRef .tc main_c_13) = constantI S_ 32 0#32 := by
  after_results

theorem s7_v47 : StableHlo.after hostOps1_3 X (Proc.devRef .tc main_v47)
    = pad S106496x128 ![0, 0] ![6496, 0] ![0, 0] (X (Proc.devRef .tc main_v26)) (sitofp (F := Ideal) .f32 (X (Proc.devRef .tc main_c_13))) pads_S100000x128_S106496x128_064960_000 h_S_ := by
  after_results
  rfl

/-- The last stretch keeps the first 100000 rows of the second region's output: the program's result. -/
theorem s8_v49 : StableHlo.after hostOps2 X (Proc.devRef .tc main_v49) = keepRows (X (Proc.devRef .tc main_v48)) := by
  after_results
  rfl

end Cert.KernelIdeal.HostSide

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.SageLayer.lean ====
/-
  One GraphSAGE layer on the extended reals, entry by entry.

  With a the mean-aggregated neighbour features and x the node's own features, both n×128, two 128×128 weight matrices
  W_l, W_r and a bias b of 128 entries, entry (p, q) of the layer's linear part is

      (∑ c, a(p, c) · W_l(c, q)) + b(q) + (∑ c, x(p, c) · W_r(c, q)),

  added in that order; the activated layer takes the maximum of that number and zero. Row p of the result reads row p of a
  and of x and nothing else of them, so the layer commutes with every selection of rows: a block of rows, the first rows
  of a zero-padded array, or the rows a slice keeps (`lin_rows`, `act_rows`).
-/
import proofs.«125207_j29695403884613_1_alg».proof.Proof.LibSideBySide
import Idealize.ShloMosaic.Lib.ValueIdx

noncomputable section

namespace SageLayer

open Idealize.ShloMosaic Idealize.ShloMosaic.ValueIdx

variable {n : Nat}

/-- Entry (p, q) of a·W_l + b + x·W_r. -/
def linAt (a x : (⟨2, ![n, 128]⟩ : Shape).Idx → EReal) (wl wr : (⟨2, ![128, 128]⟩ : Shape).Idx → EReal)
    (b : (⟨1, ![128]⟩ : Shape).Idx → EReal) (p : Fin n) (q : Fin 128) : EReal :=
  SideBySide.entry a wl p q + b (ix1 q) + SideBySide.entry x wr p q

/-- The layer's linear part as an n×128 array. -/
def lin (a x : (⟨2, ![n, 128]⟩ : Shape).Idx → EReal) (wl wr : (⟨2, ![128, 128]⟩ : Shape).Idx → EReal)
    (b : (⟨1, ![128]⟩ : Shape).Idx → EReal) : (⟨2, ![n, 128]⟩ : Shape).Idx → EReal :=
  fun i => linAt a x wl wr b (i 0) (i 1)

/-- The activated layer: the linear part cut off below at zero. -/
def act (a x : (⟨2, ![n, 128]⟩ : Shape).Idx → EReal) (wl wr : (⟨2, ![128, 128]⟩ : Shape).Idx → EReal)
    (b : (⟨1, ![128]⟩ : Shape).Idx → EReal) : (⟨2, ![n, 128]⟩ : Shape).Idx → EReal :=
  fun i => max (linAt a x wl wr b (i 0) (i 1)) 0

theorem lin_apply (a x : (⟨2, ![n, 128]⟩ : Shape).Idx → EReal) (wl wr : (⟨2, ![128, 128]⟩ : Shape).Idx → EReal)
    (b : (⟨1, ![128]⟩ : Shape).Idx → EReal) (p : Fin n) (q : Fin 128) :
    lin a x wl wr b (ix2 p q) = linAt a x wl wr b p q := rfl

theorem act_apply (a x : (⟨2, ![n, 128]⟩ : Shape).Idx → EReal) (wl wr : (⟨2, ![128, 128]⟩ : Shape).Idx → EReal)
    (b : (⟨1, ![128]⟩ : Shape).Idx → EReal) (p : Fin n) (q : Fin 128) :
    act a x wl wr b (ix2 p q) = max (linAt a x wl wr b p q) 0 := rfl

/-- Row p of the layer over arrays a, x whose rows are rows f(p) of A, X is row f(p) of the layer over A, X. -/
theorem linAt_rows {N : Nat} (A X : (⟨2, ![N, 128]⟩ : Shape).Idx → EReal) (a x : (⟨2, ![n, 128]⟩ : Shape).Idx → EReal)
    (wl wr : (⟨2, ![128, 128]⟩ : Shape).Idx → EReal) (b : (⟨1, ![128]⟩ : Shape).Idx → EReal) (p : Fin n) (p' : Fin N)
    (ha : ∀ c : Fin 128, a (ix2 p c) = A (ix2 p' c)) (hx : ∀ c : Fin 128, x (ix2 p c) = X (ix2 p' c)) (q : Fin 128) :
    linAt a x wl wr b p q = linAt A X wl wr b p' q := by
  have e1 : SideBySide.entry a wl p q = SideBySide.entry A wl p' q :=
    Finset.sum_congr rfl fun c _ => by rw [ha c]
  have e2 : SideBySide.entry x wr p q = SideBySide.entry X wr p' q :=
    Finset.sum_congr rfl fun c _ => by rw [hx c]
  unfold linAt
  rw [e1, e2]

/-- The same with every operand read through a relabelling: the entry depends only on row p of a and x, column q of the
    weights and entry q of the bias. -/
theorem linAt_congr {N : Nat} (A X : (⟨2, ![N, 128]⟩ : Shape).Idx → EReal) (a x : (⟨2, ![n, 128]⟩ : Shape).Idx → EReal)
    (WL WR wl wr : (⟨2, ![128, 128]⟩ : Shape).Idx → EReal) (B b : (⟨1, ![128]⟩ : Shape).Idx → EReal)
    (p : Fin n) (p' : Fin N) (q q' : Fin 128)
    (ha : ∀ c : Fin 128, a (ix2 p c) = A (ix2 p' c)) (hx : ∀ c : Fin 128, x (ix2 p c) = X (ix2 p' c))
    (hwl : ∀ c : Fin 128, wl (ix2 c q) = WL (ix2 c q')) (hwr : ∀ c : Fin 128, wr (ix2 c q) = WR (ix2 c q'))
    (hb : b (ix1 q) = B (ix1 q')) :
    linAt a x wl wr b p q = linAt A X WL WR B p' q' := by
  have e1 : SideBySide.entry a wl p q = SideBySide.entry A WL p' q' :=
    Finset.sum_congr rfl fun c _ => by rw [ha c, hwl c]
  have e2 : SideBySide.entry x wr p q = SideBySide.entry X WR p' q' :=
    Finset.sum_congr rfl fun c _ => by rw [hx c, hwr c]
  unfold linAt
  rw [e1, e2, hb]

end SageLayer

end
-- ==== Proof.PadKeep.lean ====
/-
  Padding with rows below and keeping the first rows again does nothing to a layer.

  Row p of a GraphSAGE layer reads row p of its two row operands only. Row p < 100000 of a zero-padded array is row p of
  the array itself, so the first 100000 rows of the layer of two padded arrays are the layer of the arrays: the 6496 rows the
  kernel computes over padding are never kept, and the padding value plays no part.
-/
import proofs.«125207_j29695403884613_1_alg».proof.Proof.HostSide
import proofs.«125207_j29695403884613_1_alg».proof.Proof.SageLayer
import Idealize.ShloMosaic.Lib.KernelVsHost
import Idealize.ShloMosaic.Lib.Pipeline.Value

noncomputable section

namespace Cert.KernelIdeal.HostSide

open Cert.KernelIdeal Cert.KernelIdeal.Gen Idealize.ShloMosaic Idealize.ShloMosaic.ValueIdx

/-- Row p < 100000 of the padded array is row p of the array. -/
theorem padRows_apply (x : (⟨S100000x128, .f32⟩ : BufTy).Contents (Elt Ideal)) (p : Fin 100000) (k : Fin 128) :
    padRows x (ix2 (⟨p.val, by have := p.isLt; omega⟩ : Fin 106496) k) = x (ix2 p k) := by
  unfold padRows
  exact pad_apply_of_inside ![0, 0] ![6496, 0] ![0, 0] x _ pads_S100000x128_S106496x128_064960_000 h_S_
    (ix2 (⟨p.val, by have := p.isLt; omega⟩ : Fin 106496) k) (ix2 p k) (fun a => by
    match a with
    | ⟨0, _⟩ => show p.val = 0 + p.val * (0 + 1); omega
    | ⟨1, _⟩ => show k.val = 0 + k.val * (0 + 1); omega)

/-- Row p of the kept rows is row p. -/
theorem keepRows_apply (y : (⟨S106496x128, .f32⟩ : BufTy).Contents (Elt Ideal)) (p : Fin 100000) (q : Fin 128) :
    keepRows y (ix2 p q) = y (ix2 (⟨p.val, by have := p.isLt; omega⟩ : Fin 106496) q) := by
  unfold keepRows
  exact extractStridedSlice_apply ![0, 0] y slices_S106496x128_S100000x128_0_0 (ix2 p q)
    (ix2 (⟨p.val, by have := p.isLt; omega⟩ : Fin 106496) q) (fun a => by
    match a with
    | ⟨0, _⟩ => show p.val = 0 + p.val; omega
    | ⟨1, _⟩ => show q.val = 0 + q.val; omega)

/-- The kept rows of the linear layer of two padded arrays are the linear layer of the arrays. -/
theorem keepRows_lin_padRows (a x : (⟨S100000x128, .f32⟩ : BufTy).Contents (Elt Ideal)) (wl wr : (⟨S128x128, .f32⟩ : BufTy).Contents (Elt Ideal)) (b : (⟨S128, .f32⟩ : BufTy).Contents (Elt Ideal)) :
    keepRows (SageLayer.lin (n := 106496) (padRows a) (padRows x) wl wr b) = SageLayer.lin (n := 100000) a x wl wr b := by
  funext i
  obtain ⟨p, q, rfl⟩ : ∃ (p : Fin 100000) (q : Fin 128), i = ix2 p q := ⟨i 0, i 1, eq_ix2 i⟩
  rw [keepRows_apply, SageLayer.lin_apply, SageLayer.lin_apply]
  exact SageLayer.linAt_congr _ _ _ _ _ _ _ _ _ _ _ _ _ _ (fun k => padRows_apply a p k) (fun k => padRows_apply x p k)
    (fun _ => rfl) (fun _ => rfl) rfl

/-- The same for the activated layer. -/
theorem keepRows_act_padRows (a x : (⟨S100000x128, .f32⟩ : BufTy).Contents (Elt Ideal)) (wl wr : (⟨S128x128, .f32⟩ : BufTy).Contents (Elt Ideal)) (b : (⟨S128, .f32⟩ : BufTy).Contents (Elt Ideal)) :
    keepRows (SageLayer.act (n := 106496) (padRows a) (padRows x) wl wr b) = SageLayer.act (n := 100000) a x wl wr b := by
  funext i
  obtain ⟨p, q, rfl⟩ : ∃ (p : Fin 100000) (q : Fin 128), i = ix2 p q := ⟨i 0, i 1, eq_ix2 i⟩
  rw [keepRows_apply, SageLayer.act_apply, SageLayer.act_apply]
  exact congrArg (max · 0) (SageLayer.linAt_congr _ _ _ _ _ _ _ _ _ _ _ _ _ _ (fun k => padRows_apply a p k) (fun k => padRows_apply x p k)
    (fun _ => rfl) (fun _ => rfl) rfl)

end Cert.KernelIdeal.HostSide

end
-- ==== Proof.Payload.lean ====
/-
  What one grid point of either kernel stores, read entry by entry.

  A point holds a block of 8192 rows of the aggregated features, the same rows of the node features, the two weight
  matrices and the bias. It narrows the four matrices to bf16, multiplies on the matrix unit into zero accumulators, adds
  the bias along every row between the two products, and the first kernel then takes the maximum with zero. On the extended
  reals narrowing is the identity and a product into a zero accumulator is the plain sum over the contracted coordinate, so
  the stored block is one GraphSAGE layer (`SageLayer.lin`, `SageLayer.act`) of the point's blocks.
-/
import proofs.«125207_j29695403884613_1_alg».proof.Proof.Gen.KernelIdeal.Skeleton
import proofs.«125207_j29695403884613_1_alg».proof.Proof.SageLayer
import Idealize.ShloMosaic.Lib.Pipeline.Value

noncomputable section

namespace Cert.KernelIdeal.Payload

open Cert.KernelIdeal Cert.KernelIdeal.Gen Idealize.ShloMosaic Idealize.ShloMosaic.ValueIdx

/-- The kernels' product record is the plain rows-by-columns one. -/
theorem dot_plain : dot_S8192x128_S128x128_S8192x128_1_0_0_1_n_n = DotDims.plain 8192 128 128 := rfl

/-- The bias, cast to one row and laid along all 8192 rows, read at (p, q), is its entry q. -/
theorem bias_apply (x3 : Vec Ideal S128 .f32) (p : Fin 8192) (q : Fin 128) :
    broadcastTo S8192x128 (shapeCast S1x128 x3 shapeCasts_S128_S1x128) broadcasts_S1x128_S8192x128 (ix2 p q) = x3 (ix1 q) := by
  rw [broadcastTo_apply _ broadcasts_S1x128_S8192x128 (ix2 p q) (ix2 (0 : Fin 1) q) (fun a => by
    match a with
    | ⟨0, _⟩ => rfl
    | ⟨1, _⟩ => rfl)]
  exact shapeCast_apply x3 shapeCasts_S128_S1x128 (ix2 (0 : Fin 1) q) (ix1 q) (by
    rw [Shape.rowMajor_val_one, Shape.rowMajor_val_two]
    show q.val = 0 * 128 + q.val
    omega)

/-- The second kernel's stored block is the layer's linear part of its loaded blocks. -/
theorem pay_lin (x0 x1 : Vec Ideal S8192x128 .f32) (x2 x4 : Vec Ideal S128x128 .f32) (x3 : Vec Ideal S128 .f32) :
    k1_pay1 (F := Ideal) x0 x1 x2 x4 x3 = SageLayer.lin x0 x1 x2 x4 x3 := by
  funext j
  obtain ⟨p, q, rfl⟩ : ∃ (p : Fin 8192) (q : Fin 128), j = ix2 p q := ⟨j 0, j 1, eq_ix2 j⟩
  rw [SageLayer.lin_apply]
  unfold k1_pay1
  simp only [shapeCast_self]
  refine (congrArg₂ (· + ·) (congrArg₂ (· + ·) (SideBySide.kernelProduct_apply _ dot_plain none _ _ p q) (bias_apply x3 p q))
    (SideBySide.kernelProduct_apply _ dot_plain none _ _ p q)).trans ?_
  rfl

/-- The first kernel's stored block is the activated layer of its loaded blocks. -/
theorem pay_act (x0 x1 : Vec Ideal S8192x128 .f32) (x2 x4 : Vec Ideal S128x128 .f32) (x3 : Vec Ideal S128 .f32) :
    k0_pay1 (F := Ideal) x0 x1 x2 x4 x3 = SageLayer.act x0 x1 x2 x4 x3 := by
  funext j
  obtain ⟨p, q, rfl⟩ : ∃ (p : Fin 8192) (q : Fin 128), j = ix2 p q := ⟨j 0, j 1, eq_ix2 j⟩
  rw [SageLayer.act_apply]
  unfold k0_pay1
  simp only [shapeCast_self]
  refine (congrArg₂ max (congrArg₂ (· + ·) (congrArg₂ (· + ·) (SideBySide.kernelProduct_apply _ dot_plain none _ _ p q) (bias_apply x3 p q))
    (SideBySide.kernelProduct_apply _ dot_plain none _ _ p q)) (Ideal.ofBits_zero_f32)).trans ?_
  rfl

end Cert.KernelIdeal.Payload

end
-- ==== Proof.Blocks.lean ====
/-
  From the blocks each grid point writes back to the whole output array of a kernel region.

  Either region runs thirteen points; point t stages rows 8192·t … 8192·t + 8191 of the padded aggregated features and
  of the padded node features, the whole weight matrices and bias, and writes back the same rows of the output. What it
  writes is one GraphSAGE layer of its blocks (`Payload`), and row p of a layer reads row p of its two row operands only,
  so the block written is the same rows of the layer of the WHOLE padded arrays. The thirteen blocks tile the 106496 rows,
  hence the output array ends as that layer of the arrays the region was entered with.
-/
import proofs.«125207_j29695403884613_1_alg».proof.Proof.Gen.KernelIdeal.Frame
import proofs.«125207_j29695403884613_1_alg».proof.Proof.Payload

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The first region's index maps over its grid: the row operands and the output move one block of rows per point, the
    weights and the bias stay at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t of the first region writes back: rows 8192·t … of the activated layer of the entry arrays. -/
theorem flushed0 (c : Dev nD) (t : Fin cfg0.N) :
    (dat0 V c).flushed 5 t = ((cfg0.win 5).blk t).view.read (Elt Ideal)
      (SageLayer.act (n := 106496) (V c main_v23) (V c main_v24) (V c main_arg2) (V c main_arg4) (V c main_arg3)) := by
  show (cfg0.win 5).cut (grid0.coords t) ((dat0 V c).after 5 t) = _
  rw [after0_5]
  unfold out0_5
  rw [View.canon_unit_zero hz2]
  simp only [View.ld_unit_zero (S := S8192x128) hz2, View.ld_unit_zero (S := S128x128) hz2, View.ld_unit_zero (S := S128) hz1]
  rw [Payload.pay_act]
  funext j
  obtain ⟨e0, e1, e2, e3, e4, e5, e6, e7, e8, e9, e10⟩ := idx_facts0 t
  show max (SageLayer.linAt (n := 8192) (iblk0 V c 0 t) (iblk0 V c 1 t) (iblk0 V c 2 t) (iblk0 V c 4 t) (iblk0 V c 3 t) (j 0) (j 1)) 0
      = max (SageLayer.linAt (n := 106496) (V c main_v23) (V c main_v24) (V c main_arg2) (V c main_arg4) (V c main_arg3)
          ((((cfg0.win 5).blk t).view.emb j) 0) ((((cfg0.win 5).blk t).view.emb j) 1)) 0
  have hj0 : (j 0).val < 8192 := (j 0).isLt
  have hj1 : (j 1).val < 128 := (j 1).isLt
  refine congrArg (max · 0) (SageLayer.linAt_congr _ _ _ _ _ _ _ _ _ _ _ _ _ _ ?_ ?_ ?_ ?_ ?_)
  · intro k
    show V c main_v23 (((cfg0.win 0).blk t).view.emb (ix2 (j 0) k)) = V c main_v23 (ix2 ((((cfg0.win 5).blk t).view.emb j) 0) k)
    refine congrArg (V c main_v23) (funext fun a => Fin.ext ?_)
    match a with
    | ⟨0, _⟩ => show win0_0.index t (0 : Fin 2) * 8192 + 1 * (j 0).val = win0_5.index t (0 : Fin 2) * 8192 + 1 * (j 0).val; omega
    | ⟨1, _⟩ => show win0_0.index t (1 : Fin 2) * 128 + 1 * k.val = k.val; omega
  · intro k
    show V c main_v24 (((cfg0.win 1).blk t).view.emb (ix2 (j 0) k)) = V c main_v24 (ix2 ((((cfg0.win 5).blk t).view.emb j) 0) k)
    refine congrArg (V c main_v24) (funext fun a => Fin.ext ?_)
    match a with
    | ⟨0, _⟩ => show win0_1.index t (0 : Fin 2) * 8192 + 1 * (j 0).val = win0_5.index t (0 : Fin 2) * 8192 + 1 * (j 0).val; omega
    | ⟨1, _⟩ => show win0_1.index t (1 : Fin 2) * 128 + 1 * k.val = k.val; omega
  · intro k
    show V c main_arg2 (((cfg0.win 2).blk t).view.emb (ix2 k (j 1))) = V c main_arg2 (ix2 k ((((cfg0.win 5).blk t).view.emb j) 1))
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    show V c main_arg4 (((cfg0.win 4).blk t).view.emb (ix2 k (j 1))) = V c main_arg4 (ix2 k ((((cfg0.win 5).blk t).view.emb j) 1))
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega
  · show V c main_arg3 (((cfg0.win 3).blk t).view.emb (ix1 (j 1))) = V c main_arg3 (ix1 ((((cfg0.win 5).blk t).view.emb j) 1))
    refine congrArg (V c main_arg3) (funext fun a => Fin.ext ?_)
    match a with
    | ⟨0, _⟩ => show win0_3.index t (0 : Fin 1) * 128 + 1 * (j 1).val = win0_5.index t (1 : Fin 2) * 128 + 1 * (j 1).val; omega

/-- An index of the region's output array is in point t's block iff each coordinate is in the block's range. -/
theorem mem_blk0 (t : Fin cfg0.N) (i : S106496x128.Idx) :
    i ∈ ((cfg0.win 5).blk t).view.set ↔ ∀ a : Fin 2, win0_5.index t a * S8192x128.size a ≤ (i a).val ∧ (i a).val < win0_5.index t a * S8192x128.size a + S8192x128.size a := by
  show i ∈ ((View.whole main_v25).slice (win0_5.rect t)).set ↔ _
  rw [View.set_slice_whole, Rect.mem_set_unit]
  exact Iff.rfl

/-- Row r of the output lies in the block of point r / 8192: the thirteen blocks tile the 106496 rows. -/
theorem cover0 (i : S106496x128.Idx) :
    ∃ t : Fin cfg0.N, (cfg0.win 5).flush t = true ∧ i ∈ ((cfg0.win 5).blk t).view.set := by
  have hi0 : (i 0).val < 106496 := (i 0).isLt
  have hi1 : (i 1).val < 128 := (i 1).isLt
  have ht : (i 0).val / 8192 < grid0.N := by rw [N_0]; omega
  obtain ⟨e0, e1, e2, e3, e4, e5, e6, e7, e8, e9, e10⟩ := idx_facts0 ⟨(i 0).val / 8192, ht⟩
  refine ⟨⟨(i 0).val / 8192, ht⟩, flush0_5 _, ?_⟩
  rw [mem_blk0]
  intro a
  match a with
  | ⟨0, _⟩ =>
    show win0_5.index ⟨(i 0).val / 8192, ht⟩ (0 : Fin 2) * 8192 ≤ (i 0).val ∧ (i 0).val < win0_5.index ⟨(i 0).val / 8192, ht⟩ (0 : Fin 2) * 8192 + 8192
    rw [e9]
    show (i 0).val / 8192 * 8192 ≤ (i 0).val ∧ (i 0).val < (i 0).val / 8192 * 8192 + 8192
    omega
  | ⟨1, _⟩ =>
    show win0_5.index ⟨(i 0).val / 8192, ht⟩ (1 : Fin 2) * 128 ≤ (i 1).val ∧ (i 1).val < win0_5.index ⟨(i 0).val / 8192, ht⟩ (1 : Fin 2) * 128 + 128
    rw [e10]
    omega

/-- The region's output array after its thirteen points: one layer of the arrays the region was entered with. -/
theorem final0 (c : Dev nD) :
    (dat0 V c).arrAt 5 cfg0.N
      = SageLayer.act (n := 106496) (V c main_v23) (V c main_v24) (V c main_arg2) (V c main_arg4) (V c main_arg3) :=
  (dat0 V c).arrAt_eq_of_cover 5 _ (fun t _ => flushed0 V c t) cover0

/-- The second region's index maps over its grid, the same as the first's: the row operands and the output move one block of rows per point, the
    weights and the bias stay at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t of the second region writes back: rows 8192·t … of the layer's linear part of the entry arrays. -/
theorem flushed1 (c : Dev nD) (t : Fin cfg1.N) :
    (dat1 V c).flushed 5 t = ((cfg1.win 5).blk t).view.read (Elt Ideal)
      (SageLayer.lin (n := 106496) (V c main_v46) (V c main_v47) (V c main_arg5) (V c main_arg7) (V c main_arg6)) := by
  show (cfg1.win 5).cut (grid1.coords t) ((dat1 V c).after 5 t) = _
  rw [after1_5]
  unfold out1_5
  rw [View.canon_unit_zero hz2]
  simp only [View.ld_unit_zero (S := S8192x128) hz2, View.ld_unit_zero (S := S128x128) hz2, View.ld_unit_zero (S := S128) hz1]
  rw [Payload.pay_lin]
  funext j
  obtain ⟨e0, e1, e2, e3, e4, e5, e6, e7, e8, e9, e10⟩ := idx_facts1 t
  show SageLayer.linAt (n := 8192) (iblk1 V c 0 t) (iblk1 V c 1 t) (iblk1 V c 2 t) (iblk1 V c 4 t) (iblk1 V c 3 t) (j 0) (j 1)
      = SageLayer.linAt (n := 106496) (V c main_v46) (V c main_v47) (V c main_arg5) (V c main_arg7) (V c main_arg6)
          ((((cfg1.win 5).blk t).view.emb j) 0) ((((cfg1.win 5).blk t).view.emb j) 1)
  have hj0 : (j 0).val < 8192 := (j 0).isLt
  have hj1 : (j 1).val < 128 := (j 1).isLt
  refine SageLayer.linAt_congr _ _ _ _ _ _ _ _ _ _ _ _ _ _ ?_ ?_ ?_ ?_ ?_
  · intro k
    show V c main_v46 (((cfg1.win 0).blk t).view.emb (ix2 (j 0) k)) = V c main_v46 (ix2 ((((cfg1.win 5).blk t).view.emb j) 0) k)
    refine congrArg (V c main_v46) (funext fun a => Fin.ext ?_)
    match a with
    | ⟨0, _⟩ => show win1_0.index t (0 : Fin 2) * 8192 + 1 * (j 0).val = win1_5.index t (0 : Fin 2) * 8192 + 1 * (j 0).val; omega
    | ⟨1, _⟩ => show win1_0.index t (1 : Fin 2) * 128 + 1 * k.val = k.val; omega
  · intro k
    show V c main_v47 (((cfg1.win 1).blk t).view.emb (ix2 (j 0) k)) = V c main_v47 (ix2 ((((cfg1.win 5).blk t).view.emb j) 0) k)
    refine congrArg (V c main_v47) (funext fun a => Fin.ext ?_)
    match a with
    | ⟨0, _⟩ => show win1_1.index t (0 : Fin 2) * 8192 + 1 * (j 0).val = win1_5.index t (0 : Fin 2) * 8192 + 1 * (j 0).val; omega
    | ⟨1, _⟩ => show win1_1.index t (1 : Fin 2) * 128 + 1 * k.val = k.val; omega
  · intro k
    show V c main_arg5 (((cfg1.win 2).blk t).view.emb (ix2 k (j 1))) = V c main_arg5 (ix2 k ((((cfg1.win 5).blk t).view.emb j) 1))
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    show V c main_arg7 (((cfg1.win 4).blk t).view.emb (ix2 k (j 1))) = V c main_arg7 (ix2 k ((((cfg1.win 5).blk t).view.emb j) 1))
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  · show V c main_arg6 (((cfg1.win 3).blk t).view.emb (ix1 (j 1))) = V c main_arg6 (ix1 ((((cfg1.win 5).blk t).view.emb j) 1))
    refine congrArg (V c main_arg6) (funext fun a => Fin.ext ?_)
    match a with
    | ⟨0, _⟩ => show win1_3.index t (0 : Fin 1) * 128 + 1 * (j 1).val = win1_5.index t (1 : Fin 2) * 128 + 1 * (j 1).val; omega

/-- An index of the region's output array is in point t's block iff each coordinate is in the block's range. -/
theorem mem_blk1 (t : Fin cfg1.N) (i : S106496x128.Idx) :
    i ∈ ((cfg1.win 5).blk t).view.set ↔ ∀ a : Fin 2, win1_5.index t a * S8192x128.size a ≤ (i a).val ∧ (i a).val < win1_5.index t a * S8192x128.size a + S8192x128.size a := by
  show i ∈ ((View.whole main_v48).slice (win1_5.rect t)).set ↔ _
  rw [View.set_slice_whole, Rect.mem_set_unit]
  exact Iff.rfl

/-- Row r of the output lies in the block of point r / 8192: the thirteen blocks tile the 106496 rows. -/
theorem cover1 (i : S106496x128.Idx) :
    ∃ t : Fin cfg1.N, (cfg1.win 5).flush t = true ∧ i ∈ ((cfg1.win 5).blk t).view.set := by
  have hi0 : (i 0).val < 106496 := (i 0).isLt
  have hi1 : (i 1).val < 128 := (i 1).isLt
  have ht : (i 0).val / 8192 < grid1.N := by rw [N_1]; omega
  obtain ⟨e0, e1, e2, e3, e4, e5, e6, e7, e8, e9, e10⟩ := idx_facts1 ⟨(i 0).val / 8192, ht⟩
  refine ⟨⟨(i 0).val / 8192, ht⟩, flush1_5 _, ?_⟩
  rw [mem_blk1]
  intro a
  match a with
  | ⟨0, _⟩ =>
    show win1_5.index ⟨(i 0).val / 8192, ht⟩ (0 : Fin 2) * 8192 ≤ (i 0).val ∧ (i 0).val < win1_5.index ⟨(i 0).val / 8192, ht⟩ (0 : Fin 2) * 8192 + 8192
    rw [e9]
    show (i 0).val / 8192 * 8192 ≤ (i 0).val ∧ (i 0).val < (i 0).val / 8192 * 8192 + 8192
    omega
  | ⟨1, _⟩ =>
    show win1_5.index ⟨(i 0).val / 8192, ht⟩ (1 : Fin 2) * 128 ≤ (i 1).val ∧ (i 1).val < win1_5.index ⟨(i 0).val / 8192, ht⟩ (1 : Fin 2) * 128 + 128
    rw [e10]
    omega

/-- The region's output array after its thirteen points: one layer of the arrays the region was entered with. -/
theorem final1 (c : Dev nD) :
    (dat1 V c).arrAt 5 cfg1.N
      = SageLayer.lin (n := 106496) (V c main_v46) (V c main_v47) (V c main_arg5) (V c main_arg7) (V c main_arg6) :=
  (dat1 V c).arrAt_eq_of_cover 5 _ (fun t _ => flushed1 V c t) cover1

end Cert.KernelIdeal.Blocks

end
-- ==== Proof.Boundaries.lean ====
/-
  The kernel program's buffers at its segment boundaries, and its result.

  From the launch memory the first four stretches of host operations leave, at the first region's entry, the padded mean
  aggregation of the features and the padded features; the region leaves the activated layer of those in its output; the
  next stretches keep its first 100000 rows (the first layer h), aggregate them over the same edge list and pad both; the
  second region leaves the linear layer of those; the last stretch keeps its first 100000 rows. Padding and keeping cancel
  (`PadKeep`), so the result is the second layer of (aggr h, h) with h the first layer of (aggr x, x).
-/
import proofs.«125207_j29695403884613_1_alg».proof.Proof.Keeps
import proofs.«125207_j29695403884613_1_alg».proof.Proof.HostSide
import proofs.«125207_j29695403884613_1_alg».proof.Proof.PadKeep
import proofs.«125207_j29695403884613_1_alg».proof.Proof.Blocks

set_option maxRecDepth 16384

noncomputable section

namespace Cert.KernelIdeal.Boundaries

open Cert.KernelIdeal Cert.KernelIdeal.Gen Cert.KernelIdeal.HostSide Cert.KernelIdeal.Keeps
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer of the features: the activated layer of their mean aggregation and themselves. -/
def h1 : (⟨S100000x128, .f32⟩ : BufTy).Contents (Elt Ideal) :=
  SageLayer.act (n := 100000) (aggr (srcOf (m ((c.tc : Thread nD τ).loc main_arg0))) (dstOf (m ((c.tc : Thread nD τ).loc main_arg0))) (m ((c.tc : Thread nD τ).loc main_arg1)))
    (m ((c.tc : Thread nD τ).loc main_arg1)) (m ((c.tc : Thread nD τ).loc main_arg2)) (m ((c.tc : Thread nD τ).loc main_arg4)) (m ((c.tc : Thread nD τ).loc main_arg3))

/-! ## The first region's entry -/

/-- A buffer none of the first four stretches writes holds its launch contents at the first region's entry. -/
theorem W4_keep {r : Ref sig .tc} (h0 : r ∉ wr0) (h1 : r ∉ wr1) (h2 : r ∉ wr2) (h3 : r ∉ wr3) :
    W4 m ρ c (Proc.devRef .tc r) = m ((c.tc : Thread nD τ).loc r) :=
  (keep3 (W3 m ρ c) h3).trans ((keep2 (W2 m ρ c) h2).trans ((keep1 (W1 m ρ c) h1).trans (keep0 (W0 m ρ c) h0)))

theorem W4_v1 : W4 m ρ c (Proc.devRef .tc main_v1) = srcOf (m ((c.tc : Thread nD τ).loc main_arg0)) :=
  (keep3 (W3 m ρ c) (by decide)).trans ((keep2 (W2 m ρ c) (by decide)).trans ((keep1 (W1 m ρ c) (by decide)).trans (s0_v1 (W0 m ρ c))))

theorem W4_v3 : W4 m ρ c (Proc.devRef .tc main_v3) = dstOf (m ((c.tc : Thread nD τ).loc main_arg0)) :=
  (keep3 (W3 m ρ c) (by decide)).trans ((keep2 (W2 m ρ c) (by decide)).trans ((keep1 (W1 m ρ c) (by decide)).trans (s0_v3 (W0 m ρ c))))

theorem W4_v23 : W4 m ρ c (Proc.devRef .tc main_v23)
    = padRows (aggr (srcOf (m ((c.tc : Thread nD τ).loc main_arg0))) (dstOf (m ((c.tc : Thread nD τ).loc main_arg0))) (m ((c.tc : Thread nD τ).loc main_arg1))) := by
  refine (keep3 (W3 m ρ c) (by decide)).trans ((keep2 (W2 m ρ c) (by decide)).trans ((s1_v23 (W1 m ρ c)).trans ?_))
  rw [show W1 m ρ c (Proc.devRef .tc main_v22) = _ from s0_v22 (W0 m ρ c), show W1 m ρ c (Proc.devRef .tc main_c_4) = _ from s0_c4 (W0 m ρ c)]
  rfl

theorem W4_v24 : W4 m ρ c (Proc.devRef .tc main_v24) = padRows (m ((c.tc : Thread nD τ).loc main_arg1)) := by
  refine (s3_v24 (W3 m ρ c)).trans ?_
  rw [show W3 m ρ c (Proc.devRef .tc main_c_5) = _ from s2_c5 (W2 m ρ c),
    show W3 m ρ c (Proc.devRef .tc main_arg1) = (m ((c.tc : Thread nD τ).loc main_arg1)) from
      (keep2 (W2 m ρ c) (by decide)).trans ((keep1 (W1 m ρ c) (by decide)).trans (keep0 (W0 m ρ c) (by decide)))]
  rfl

private theorem congr5 {α β γ δ ε ζ : Sort _} (f : α → β → γ → δ → ε → ζ) {a a' : α} {b b' : β} {g g' : γ} {d d' : δ} {e e' : ε}
    (h1 : a = a') (h2 : b = b') (h3 : g = g') (h4 : d = d') (h5 : e = e') : f a b g d e = f a' b' g' d' e' := by
  subst h1 h2 h3 h4 h5; rfl

private theorem congr3 {α β γ δ : Sort _} (f : α → β → γ → δ) {a a' : α} {b b' : β} {g g' : γ}
    (h1 : a = a') (h2 : b = b') (h3 : g = g') : f a b g = f a' b' g' := by
  subst h1 h2 h3; rfl

/-! ## The first region's exit -/

/-- A buffer that is none of the first region's arrays holds at its exit what it held at its entry. -/
theorem W5_keep {r : Ref sig .tc} (hr : ∀ w, Pipeline.arrRef spec0 w ≠ r) :
    W5 m ρ c (Proc.devRef .tc r) = W4 m ρ c (Proc.devRef .tc r) := W5_of_ne m ρ c r hr

/-- The first region's output: the activated layer of the padded aggregation and the padded features. -/
theorem W5_v25 : W5 m ρ c (Proc.devRef .tc main_v25)
    = SageLayer.act (n := 106496) (padRows (aggr (srcOf (m ((c.tc : Thread nD τ).loc main_arg0))) (dstOf (m ((c.tc : Thread nD τ).loc main_arg0))) (m ((c.tc : Thread nD τ).loc main_arg1)))) (padRows (m ((c.tc : Thread nD τ).loc main_arg1))) (m ((c.tc : Thread nD τ).loc main_arg2)) (m ((c.tc : Thread nD τ).loc main_arg4)) (m ((c.tc : Thread nD τ).loc main_arg3)) :=
  (W5_arr m ρ c 5).trans ((Blocks.final0 (V4 m ρ) c).trans (congr5 (SageLayer.act (n := 106496)) (W4_v23 m ρ c) (W4_v24 m ρ c)
    (W4_keep m ρ c (by decide) (by decide) (by decide) (by decide)) (W4_keep m ρ c (by decide) (by decide) (by decide) (by decide))
    (W4_keep m ρ c (by decide) (by decide) (by decide) (by decide))))

/-! ## The second region's entry -/

/-- The kept rows of the first region's output are the first layer. -/
theorem W6_v26 : W6 m ρ c (Proc.devRef .tc main_v26) = h1 m c :=
  (s4_v26 (W5 m ρ c)).trans ((congrArg keepRows (W5_v25 m ρ c)).trans (keepRows_act_padRows _ _ _ _ _))

theorem W6_v45 : W6 m ρ c (Proc.devRef .tc main_v45) = aggr (srcOf (m ((c.tc : Thread nD τ).loc main_arg0))) (dstOf (m ((c.tc : Thread nD τ).loc main_arg0))) (h1 m c) :=
  (s4_v45 (W5 m ρ c)).trans (congr3 aggr ((W5_keep m ρ c (by decide)).trans (W4_v1 m ρ c)) ((W5_keep m ρ c (by decide)).trans (W4_v3 m ρ c))
    ((congrArg keepRows (W5_v25 m ρ c)).trans (keepRows_act_padRows _ _ _ _ _)))

theorem W9_v46 : W9 m ρ c (Proc.devRef .tc main_v46) = padRows (aggr (srcOf (m ((c.tc : Thread nD τ).loc main_arg0))) (dstOf (m ((c.tc : Thread nD τ).loc main_arg0))) (h1 m c)) := by
  refine (keep7 (W8 m ρ c) (by decide)).trans ((keep6 (W7 m ρ c) (by decide)).trans ((s5_v46 (W6 m ρ c)).trans ?_))
  rw [show W6 m ρ c (Proc.devRef .tc main_v45) = _ from W6_v45 m ρ c, show W6 m ρ c (Proc.devRef .tc main_c_12) = _ from s4_c12 (W5 m ρ c)]
  rfl

theorem W9_v47 : W9 m ρ c (Proc.devRef .tc main_v47) = padRows (h1 m c) := by
  refine (s7_v47 (W8 m ρ c)).trans ?_
  rw [show W8 m ρ c (Proc.devRef .tc main_c_13) = _ from s6_c13 (W7 m ρ c),
    show W8 m ρ c (Proc.devRef .tc main_v26) = h1 m c from
      (keep6 (W7 m ρ c) (by decide)).trans ((keep5 (W6 m ρ c) (by decide)).trans (W6_v26 m ρ c))]
  rfl

/-- A buffer no stretch before the second region writes, and that is not an array of the first region, holds its launch
    contents at the second region's entry. -/
theorem W9_keep {r : Ref sig .tc} (h0 : r ∉ wr0) (h1 : r ∉ wr1) (h2 : r ∉ wr2) (h3 : r ∉ wr3) (hr : ∀ w, Pipeline.arrRef spec0 w ≠ r)
    (h4 : r ∉ wr4) (h5 : r ∉ wr5) (h6 : r ∉ wr6) (h7 : r ∉ wr7) :
    W9 m ρ c (Proc.devRef .tc r) = m ((c.tc : Thread nD τ).loc r) :=
  (keep7 (W8 m ρ c) h7).trans ((keep6 (W7 m ρ c) h6).trans ((keep5 (W6 m ρ c) h5).trans ((keep4 (W5 m ρ c) h4).trans
    ((W5_keep m ρ c hr).trans (W4_keep m ρ c h0 h1 h2 h3)))))

/-! ## The second region's exit, and the result -/

theorem W10_v48 : W10 m ρ c (Proc.devRef .tc main_v48)
    = SageLayer.lin (n := 106496) (padRows (aggr (srcOf (m ((c.tc : Thread nD τ).loc main_arg0))) (dstOf (m ((c.tc : Thread nD τ).loc main_arg0))) (h1 m c))) (padRows (h1 m c))
        (m ((c.tc : Thread nD τ).loc main_arg5)) (m ((c.tc : Thread nD τ).loc main_arg7)) (m ((c.tc : Thread nD τ).loc main_arg6)) :=
  (W10_arr m ρ c 5).trans ((Blocks.final1 (V9 m ρ) c).trans (congr5 (SageLayer.lin (n := 106496)) (W9_v46 m ρ c) (W9_v47 m ρ c)
    (W9_keep m ρ c (by decide) (by decide) (by decide) (by decide) (by decide) (by decide) (by decide) (by decide) (by decide))
    (W9_keep m ρ c (by decide) (by decide) (by decide) (by decide) (by decide) (by decide) (by decide) (by decide) (by decide))
    (W9_keep m ρ c (by decide) (by decide) (by decide) (by decide) (by decide) (by decide) (by decide) (by decide) (by decide))))

/-- THE RESULT: the second layer's linear part of the aggregated first layer and the first layer. -/
theorem result : W11 m ρ c (Proc.devRef .tc main_v49)
    = SageLayer.lin (n := 100000) (aggr (srcOf (m ((c.tc : Thread nD τ).loc main_arg0))) (dstOf (m ((c.tc : Thread nD τ).loc main_arg0))) (h1 m c)) (h1 m c)
        (m ((c.tc : Thread nD τ).loc main_arg5)) (m ((c.tc : Thread nD τ).loc main_arg7)) (m ((c.tc : Thread nD τ).loc main_arg6)) :=
  (s8_v49 (W10 m ρ c)).trans ((congrArg keepRows (W10_v48 m ρ c)).trans (keepRows_lin_padRows _ _ _ _ _))

end Cert.KernelIdeal.Boundaries

end
-- ==== Proof.RefValue.lean ====
/-
  The reference's two layers, entry by entry.

  The reference aggregates the features over the edge list (`val_main_v22`, the stage that divides the summed rows by
  the edge counts), forms aggr·W_l + b + x·W_r on the whole 100000-row arrays with two host products, cuts it off below
  at zero, aggregates that over the same edge list and forms the second layer without the cut. On the extended reals a
  host product's entry is the plain sum over the contracted coordinate, so the first layer's result is `SageLayer.act`
  of the aggregated features and the features, and the program's result is `SageLayer.lin` of the aggregated first
  layer and the first layer.
-/
import proofs.«125207_j29695403884613_1_alg».proof.Proof.Gen.ReferenceIdeal.Read
import proofs.«125207_j29695403884613_1_alg».proof.Proof.SageLayer

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.SL.Sem Idealize.ShloMosaic.ValueIdx

/-- The reference's product record is the plain rows-by-columns one. -/
theorem dot_plain : dot_S100000x128_S128x128_S100000x128_1_0_0_1_n_n = DotDims.plain 100000 128 128 := rfl

/-- The bias laid along the rows (a one-row array broadcast down 100000 rows), read at (p, q), is its entry q. -/
theorem bias_apply (b : (⟨S128, .f32⟩ : BufTy).Contents (Elt Ideal)) (p : Fin 100000) (q : Fin 128) :
    val_main_v25 (F := Ideal) b (ix2 p q) = b (ix1 q) := by
  rw [val_main_v25_apply, val_main_v24_apply]
  exact congrArg b (funext fun a => by match a with | ⟨0, _⟩ => rfl)

/-- The reference's first layer is the activated layer of the aggregated features and the features. -/
theorem layer1 (e : (⟨S2x1000000, .i32⟩ : BufTy).Contents (Elt Ideal)) (x : (⟨S100000x128, .f32⟩ : BufTy).Contents (Elt Ideal)) (wl : (⟨S128x128, .f32⟩ : BufTy).Contents (Elt Ideal))
    (b : (⟨S128, .f32⟩ : BufTy).Contents (Elt Ideal)) (wr : (⟨S128x128, .f32⟩ : BufTy).Contents (Elt Ideal)) :
    val_main_v29 (F := Ideal) e x wl b wr = SageLayer.act (n := 100000) (val_main_v22 (F := Ideal) e x) x wl wr b := by
  funext i
  obtain ⟨p, q, rfl⟩ : ∃ (p : Fin 100000) (q : Fin 128), i = ix2 p q := ⟨i 0, i 1, eq_ix2 i⟩
  rw [SageLayer.act_apply]
  rw [val_main_v29_apply, val_main_v28_apply, val_main_v26_apply]
  unfold val_main_v23 val_main_v27
  rw [SideBySide.hostProduct_apply _ dot_plain, SideBySide.hostProduct_apply _ dot_plain, bias_apply,
    val_main_call0_v0_apply, val_main_call0_cst_apply]
  exact congrArg (max _) Ideal.ofBits_zero_f32

/-- The second layer's bias laid along the rows, read at (p, q), is its entry q. -/
theorem bias2_apply (b : (⟨S128, .f32⟩ : BufTy).Contents (Elt Ideal)) (p : Fin 100000) (q : Fin 128) :
    val_main_v51 (F := Ideal) b (ix2 p q) = b (ix1 q) := by
  rw [val_main_v51_apply, val_main_v50_apply]
  exact congrArg b (funext fun a => by match a with | ⟨0, _⟩ => rfl)

/-- The second aggregation is the first's function of the edge list, applied to the first layer's result. -/
theorem aggr2 (e : (⟨S2x1000000, .i32⟩ : BufTy).Contents (Elt Ideal)) (x : (⟨S100000x128, .f32⟩ : BufTy).Contents (Elt Ideal)) (wl : (⟨S128x128, .f32⟩ : BufTy).Contents (Elt Ideal))
    (b : (⟨S128, .f32⟩ : BufTy).Contents (Elt Ideal)) (wr : (⟨S128x128, .f32⟩ : BufTy).Contents (Elt Ideal)) :
    val_main_v48 (F := Ideal) e x wl b wr = val_main_v22 (F := Ideal) e (val_main_v29 (F := Ideal) e x wl b wr) := rfl

/-- The reference's result is the layer's linear part of the aggregated first layer and the first layer. -/
theorem layer2 (e : (⟨S2x1000000, .i32⟩ : BufTy).Contents (Elt Ideal)) (x : (⟨S100000x128, .f32⟩ : BufTy).Contents (Elt Ideal)) (w1l : (⟨S128x128, .f32⟩ : BufTy).Contents (Elt Ideal))
    (b1 : (⟨S128, .f32⟩ : BufTy).Contents (Elt Ideal)) (w1r w2l : (⟨S128x128, .f32⟩ : BufTy).Contents (Elt Ideal)) (b2 : (⟨S128, .f32⟩ : BufTy).Contents (Elt Ideal)) (w2r : (⟨S128x128, .f32⟩ : BufTy).Contents (Elt Ideal)) :
    val_main_v54 (F := Ideal) e x w1l b1 w1r w2l b2 w2r
      = SageLayer.lin (n := 100000) (val_main_v48 (F := Ideal) e x w1l b1 w1r) (val_main_v29 (F := Ideal) e x w1l b1 w1r) w2l w2r b2 := by
  funext i
  obtain ⟨p, q, rfl⟩ : ∃ (p : Fin 100000) (q : Fin 128), i = ix2 p q := ⟨i 0, i 1, eq_ix2 i⟩
  rw [SageLayer.lin_apply, val_main_v54_apply, val_main_v52_apply]
  unfold val_main_v49 val_main_v53
  rw [SideBySide.hostProduct_apply _ dot_plain, SideBySide.hostProduct_apply _ dot_plain, bias2_apply]
  rfl

/-- The reference's result array from the launch memory: two layers over the mean aggregation `val_main_v22`. -/
theorem result_eq (m : (ℓ : Loc nD τ sig) → Buf (Elt Ideal) ℓ) (c : Dev nD) :
    Cert.ReferenceIdeal.Value.res_main_v54 m c
      = SageLayer.lin (n := 100000)
          (val_main_v22 (F := Ideal) (m ((c.tc : Thread nD τ).loc main_arg0))
            (SageLayer.act (n := 100000)
              (val_main_v22 (F := Ideal) (m ((c.tc : Thread nD τ).loc main_arg0)) (m ((c.tc : Thread nD τ).loc main_arg1)))
              (m ((c.tc : Thread nD τ).loc main_arg1)) (m ((c.tc : Thread nD τ).loc main_arg2)) (m ((c.tc : Thread nD τ).loc main_arg4))
              (m ((c.tc : Thread nD τ).loc main_arg3))))
          (SageLayer.act (n := 100000)
            (val_main_v22 (F := Ideal) (m ((c.tc : Thread nD τ).loc main_arg0)) (m ((c.tc : Thread nD τ).loc main_arg1)))
            (m ((c.tc : Thread nD τ).loc main_arg1)) (m ((c.tc : Thread nD τ).loc main_arg2)) (m ((c.tc : Thread nD τ).loc main_arg4))
            (m ((c.tc : Thread nD τ).loc main_arg3)))
          (m ((c.tc : Thread nD τ).loc main_arg5)) (m ((c.tc : Thread nD τ).loc main_arg7)) (m ((c.tc : Thread nD τ).loc main_arg6)) := by
  rw [val_main_v54_eq, layer2, aggr2, layer1]

end Cert.ReferenceIdeal.RefValue

end
-- ==== Proof.lean ====
/-
  The certificate of a two-layer GraphSAGE forward pass: a kernel program against its jnp reference, over the extended reals.

  Both programs aggregate a feature array over an edge list by the same host operations: each node takes the mean of the
  feature rows of the nodes that send it an edge (the sum of the gathered rows divided by the edge count, at least one).
  A layer is then aggr·W_l + b + x·W_r, entry by entry (`SageLayer`); the first layer is cut off below at zero and fed,
  with its own aggregation, to the second.

  The reference does this on whole 100000×128 arrays with host products (`RefValue`). The kernel program pads the two row
  operands of a layer to 106496 rows, runs a kernel region of thirteen points, each forming the layer of a block of 8192
  rows on the matrix unit with bf16-narrowed operands (`Payload`, `Blocks`), and keeps the first 100000 rows of the
  region's output (`HostSide`, `Boundaries`). On the extended reals narrowing is the identity, a product into a zero
  accumulator is the plain sum, a row of the layer reads one row of each row operand, and padding then keeping rows cancels
  (`PadKeep`): the two programs end at one function of the arguments. No law used needs an entry to be finite (sums are
  only re-read, never re-ordered or distributed), so the precondition is not opened.

  The three frames are the generated ones (the reference's is its generated run with the result dropped); the kernel's
  run with its result read (`KernelRun`) is the generated frame's launch called once more. The ideal pass rewrote nothing,
  so `preserves` is `True`.
-/
import proofs.«125207_j29695403884613_1_alg».proof.Defs
import proofs.«125207_j29695403884613_1_alg».proof.Proof.Gen.Kernel
import proofs.«125207_j29695403884613_1_alg».proof.Proof.Gen.Kernel.Skeleton
import proofs.«125207_j29695403884613_1_alg».proof.Proof.Gen.Kernel.Launch
import proofs.«125207_j29695403884613_1_alg».proof.Proof.Gen.Kernel.Points
import proofs.«125207_j29695403884613_1_alg».proof.Proof.Gen.Kernel.Frame
import proofs.«125207_j29695403884613_1_alg».proof.Proof.Gen.KernelIdeal
import proofs.«125207_j29695403884613_1_alg».proof.Proof.Gen.KernelIdeal.Skeleton
import proofs.«125207_j29695403884613_1_alg».proof.Proof.Gen.KernelIdeal.Launch
import proofs.«125207_j29695403884613_1_alg».proof.Proof.Gen.KernelIdeal.Points
import proofs.«125207_j29695403884613_1_alg».proof.Proof.Gen.KernelIdeal.Frame
import proofs.«125207_j29695403884613_1_alg».proof.Proof.Gen.ReferenceIdeal
import proofs.«125207_j29695403884613_1_alg».proof.Proof.Gen.Pre_finite_inputs
import proofs.«125207_j29695403884613_1_alg».proof.Proof.Gen.ReferenceIdeal.Run
import proofs.«125207_j29695403884613_1_alg».proof.Proof.Gen.ReferenceIdeal.Read
import proofs.«125207_j29695403884613_1_alg».proof.Proof.KernelRun
import proofs.«125207_j29695403884613_1_alg».proof.Proof.Boundaries
import proofs.«125207_j29695403884613_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program's mean aggregation over the edge list is the reference's aggregation stage: the same host
    operations on the same operands, the two programs' shape records being equal. -/
theorem aggr_eq (e : (⟨Cert.KernelIdeal.S2x1000000, .i32⟩ : BufTy).Contents (Elt Ideal)) (x : (⟨Cert.KernelIdeal.S100000x128, .f32⟩ : BufTy).Contents (Elt Ideal)) :
    Cert.KernelIdeal.HostSide.aggr (Cert.KernelIdeal.HostSide.srcOf e) (Cert.KernelIdeal.HostSide.dstOf e) x = Cert.ReferenceIdeal.Read.val_main_v22 (F := Ideal) e x := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, at the second layer of the aggregated first layer and the
    first layer. -/
theorem algebraic : Cert.algebraic_KernelIdeal_ReferenceIdeal := by
  intro m ρ m' ρ' _ hagree
  refine ⟨fun c => SageLayer.lin (n := 100000)
      (Cert.KernelIdeal.HostSide.aggr (Cert.KernelIdeal.HostSide.srcOf (m ((c.tc : Thread Cert.KernelIdeal.nD Cert.KernelIdeal.τ).loc Cert.KernelIdeal.main_arg0)))
        (Cert.KernelIdeal.HostSide.dstOf (m ((c.tc : Thread Cert.KernelIdeal.nD Cert.KernelIdeal.τ).loc Cert.KernelIdeal.main_arg0))) (Cert.KernelIdeal.Boundaries.h1 m c))
      (Cert.KernelIdeal.Boundaries.h1 m c) (m ((c.tc : Thread Cert.KernelIdeal.nD Cert.KernelIdeal.τ).loc Cert.KernelIdeal.main_arg5))
      (m ((c.tc : Thread Cert.KernelIdeal.nD Cert.KernelIdeal.τ).loc Cert.KernelIdeal.main_arg7)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Boundaries.result m ρ c), (h c).2⟩)
      (Cert.KernelIdeal.GenRun.run_value (F := Ideal) m ρ)
  · refine (θ_run Cert.ReferenceIdeal.defs _ _).mono (fun r h c => ⟨(h c).1.trans ?_, (h c).2⟩) (Cert.ReferenceIdeal.Value.run (F := Ideal) m' ρ')
    obtain ⟨a0, a1, a2, a3, a4, a5, a6, a7⟩ := hagree c
    rw [Cert.ReferenceIdeal.RefValue.result_eq, a0, a1, a2, a3, a4, a5, a6, a7]
    beta_reduce
    unfold Cert.KernelIdeal.Boundaries.h1
    rw [aggr_eq, aggr_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
